-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S16384x1, .f32⟩
  | .hbm, ⟨4, _⟩ => ⟨S1x16384, .f32⟩
  | .hbm, ⟨5, _⟩ => ⟨S1x16384, .f32⟩
  | .hbm, ⟨6, _⟩ => ⟨S1x1, .f32⟩
  | .hbm, ⟨7, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x1, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S_, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel

variable [Facts₀]

class Facts : Prop extends Facts₀ where

variable [Facts]
-- ==== Proof.Pieces.lean ====
/-
  What one step of the kernel leaves in the one-element accumulator, as a pure function of what the step reads.

  The body's arithmetic is three terms of its loads:
    * `k0_pay2`            — the zero the first step stores;
    * `k0_pay3 x0 x1 x2 x3 a` — `a` plus the sum of the step's 1024 x 1024 tile of pair terms, from the column blocks
                               `x0, x1` (rows i of p and t) and the row blocks `x2, x3` (columns j of p and t);
    * `k0_pay1 a`          — `1 - a / (16384 * 16383)`, applied by the last step only.
  Each step's stores are whole-buffer stores of the one-element accumulator, so the LAST store decides what the
  buffer holds, and a load that follows a store reads that store's value.  Hence:
    first step  : zero, then `0 + tile`                     ->  k0_pay3 … k0_pay2
    middle step : `acc + tile`                              ->  k0_pay3 … acc
    last step   : `acc + tile`, read back, then the finish  ->  k0_pay1 (k0_pay3 … acc)
  The statements hold at every float instance; they are read at the extended reals later.
-/
import proofs.«122512_j58325655880083_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 buffer, however spelt. -/
theorem hz : (![0, 0] : Fin 2 → Nat) = fun _ => 0 := funext fun a => by fin_cases a <;> rfl

/-- A MIDDLE step: one store, of the accumulator it found plus the step's tile sum. -/
theorem out_middle (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1024 .f32) (h5 : a5.IsWhole) (a6 : Memref sig .tc .vmem S1x1 .f32) (h6 : a6.IsWhole) (hc0 : ¬cond0_0 i) (hc1 : ¬cond0_1 i)
    (x0 : Vec F S1024x1 .f32) (x1 : Vec F S1024x1 .f32) (x2 : Vec F S1x1024 .f32) (x3 : Vec F S1x1024 .f32) (xo4 : Vec F S1x1 .f32) :
    out0_B_4 c i a2 h2 a3 h3 a4 h4 a5 h5 a6 h6 hc0 hc1 x0 x1 x2 x3 xo4 = k0_pay3 x0 x1 x2 x3 xo4 := by
  unfold out0_B_4
  rw [View.read_writes_eq_canon _ _ _ (cover0_B_4 c i a2 h2 a3 h3 a4 h4 a5 h5 a6 h6 hc0 hc1 x0 x1 x2 x3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

/-- The FIRST step: the zero is stored, read back, and the step's tile sum added to it. -/
theorem out_first (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1024 .f32) (h5 : a5.IsWhole) (a6 : Memref sig .tc .vmem S1x1 .f32) (h6 : a6.IsWhole) (hc0 : cond0_0 i) (hc1 : ¬cond0_1 i)
    (x0 : Vec F S1024x1 .f32) (x1 : Vec F S1024x1 .f32) (x2 : Vec F S1x1024 .f32) (x3 : Vec F S1x1024 .f32) :
    out0_A_4 c i a2 h2 a3 h3 a4 h4 a5 h5 a6 h6 hc0 hc1 x0 x1 x2 x3 = k0_pay3 x0 x1 x2 x3 (k0_pay2 (F := F)) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

/-- The LAST step: the accumulator plus the tile sum is stored, read back, and the finish applied to it. -/
theorem out_last (c : Dev nD) (i : grid0.Coords) (a2 : Memref sig .tc .vmem S1024x1 .f32) (h2 : a2.IsWhole) (a3 : Memref sig .tc .vmem S1024x1 .f32) (h3 : a3.IsWhole) (a4 : Memref sig .tc .vmem S1x1024 .f32) (h4 : a4.IsWhole) (a5 : Memref sig .tc .vmem S1x1024 .f32) (h5 : a5.IsWhole) (a6 : Memref sig .tc .vmem S1x1 .f32) (h6 : a6.IsWhole) (hc0 : ¬cond0_0 i) (hc1 : cond0_1 i)
    (x0 : Vec F S1024x1 .f32) (x1 : Vec F S1024x1 .f32) (x2 : Vec F S1x1024 .f32) (x3 : Vec F S1x1024 .f32) (xo4 : Vec F S1x1 .f32) :
    out0_C_4 c i a2 h2 a3 h3 a4 h4 a5 h5 a6 h6 hc0 hc1 x0 x1 x2 x3 xo4 = k0_pay1 (k0_pay3 x0 x1 x2 x3 xo4) := by
  unfold out0_C_4
  rw [View.read_writes_eq_canon _ _ _ (cover0_C_4 c i a2 h2 a3 h3 a4 h4 a5 h5 a6 h6 hc0 hc1 x0 x1 x2 x3 xo4)]
  unfold kernelRun0_C
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread,
    View.ld_unit_zero (S := S1024x1) hz, View.ld_unit_zero (S := S1x1024) hz, View.ld_unit_zero (S := S1x1) hz]

end Cert.KernelIdeal.Pieces

end
-- ==== Proof.PairSum.lean ====
/-
  The mathematics both programs compute, stated once over plain index types.

  For two vectors p, t of 16384 extended reals, the PAIR TERM at (i, j) is
      clamp (p i - p j) * clamp (t i - t j),      clamp x = min 1 (max (-1) x),
  the TOTAL is its sum over all pairs (i, j), and the RESULT is 1 - total / (16384 * 16383).

  One program sums all pairs at once and then multiplies by 1/2 and by 2 before dividing; the other cuts the
  16384 x 16384 square of pairs into 16 x 16 tiles of 1024 x 1024, sums a tile row by row, and adds the tiles up in
  row-major order of the tiles, one tile per step, starting from zero.  Two facts join them:
    * a finite sum in a commutative monoid may be regrouped (here: a position below 16384 is a tile number below 16
      times 1024 plus an offset below 1024, and a step below 256 is a tile row times 16 plus a tile column);
    * 2 * (S * (1/2)) = S for every extended real S, by commutativity and associativity of the product alone.
  No finiteness is used: addition and multiplication of extended reals are commutative and associative everywhere.
-/
import Idealize.ShloMosaic.PureOps.Ideal
import Idealize.ShloMosaic.PureOps.Ideal.Laws
import Idealize.ShloMosaic.Lib.ValueIdx
import Mathlib.Algebra.BigOperators.Fin

noncomputable section

namespace Cert.PairSum

open Idealize.ShloMosaic

/-! ## The constants -/

/-- The word of `2.0` denotes the real 2. -/
theorem two_val : Ideal.ofBits .f32 0x40000000#32 = ((2 : ℝ) : EReal) := by
  simp [Ideal.ofBits, Ideal.ieee, -EReal.coe_mul]; norm_num

/-- The word of `0.5` denotes the real 1/2. -/
theorem half_val : Ideal.ofBits .f32 0x3F000000#32 = ((1 / 2 : ℝ) : EReal) := by
  simp [Ideal.ofBits, Ideal.ieee, -EReal.coe_mul]; norm_num

/-- Doubling a half: `2 * (S * (1/2)) = S` on every extended real, the infinities included (the product is
    commutative and associative, and `2 * (1/2) = 1` among the reals). -/
theorem two_mul_half (S : EReal) :
    Ideal.ofBits .f32 0x40000000#32 * (S * Ideal.ofBits .f32 0x3F000000#32) = S := by
  rw [two_val, half_val, mul_comm S, ← mul_assoc, ← EReal.coe_mul]
  norm_num

/-! ## The pair term, the total and the result -/

/-- `min 1 (max (-1) x)`, the two bounds as the words the programs spell. -/
def clamp (x : EReal) : EReal :=
  min (Ideal.ofBits .f32 0x3F800000#32) (max (Ideal.ofBits .f32 0xBF800000#32) x)

/-- The pair term at `(i, j)`. -/
def term (p t : Fin 16384 → EReal) (i j : Fin 16384) : EReal :=
  clamp (p i - p j) * clamp (t i - t j)

/-- The sum of the pair term over all pairs. -/
def total (p t : Fin 16384 → EReal) : EReal := ∑ i : Fin 16384, ∑ j : Fin 16384, term p t i j

/-- `1 - S / (16384 * 16383)`, the divisor as the word both programs spell. -/
def finish (S : EReal) : EReal :=
  Ideal.ofBits .f32 0x3F800000#32 - Ideal.div S (Ideal.ofBits .f32 0x4D7FFC00#32)

/-- A rank-1 array of 16384 entries as a function of its one coordinate. -/
def asFn (A : (⟨1, ![16384]⟩ : Shape).Idx → EReal) : Fin 16384 → EReal := fun i => A (ValueIdx.ix1 i)

/-! ## Positions as tile and offset -/

/-- Offset `r` of tile `b`: position `1024 b + r`. -/
def pos (b : Fin 16) (r : Fin 1024) : Fin 16384 :=
  ⟨b.val * 1024 + r.val, by have := b.isLt; have := r.isLt; omega⟩

theorem pos_val (b : Fin 16) (r : Fin 1024) : (pos b r).val = b.val * 1024 + r.val := rfl

/-- Every position is an offset of exactly one tile. -/
def posEquiv : Fin 16 × Fin 1024 ≃ Fin 16384 where
  toFun x := pos x.1 x.2
  invFun i := (⟨i.val / 1024, by have := i.isLt; omega⟩, ⟨i.val % 1024, by omega⟩)
  left_inv x := by
    obtain ⟨b, r⟩ := x
    have hb := b.isLt
    have hr := r.isLt
    refine Prod.ext (Fin.ext ?_) (Fin.ext ?_)
    · show (b.val * 1024 + r.val) / 1024 = b.val
      omega
    · show (b.val * 1024 + r.val) % 1024 = r.val
      omega
  right_inv i := Fin.ext (by
    show i.val / 1024 * 1024 + i.val % 1024 = i.val
    omega)

/-- So a sum over the positions is the sum over the tiles of the sums over their offsets. -/
theorem sum_pos {M : Type*} [AddCommMonoid M] (f : Fin 16384 → M) :
    ∑ i, f i = ∑ b : Fin 16, ∑ r : Fin 1024, f (pos b r) := by
  rw [← Equiv.sum_comp posEquiv f, Fintype.sum_prod_type]
  rfl

/-- The sum of the pair term over the tile `(bi, bj)`, rows outermost. -/
def block (p t : Fin 16384 → EReal) (bi bj : Fin 16) : EReal :=
  ∑ r : Fin 1024, ∑ l : Fin 1024, term p t (pos bi r) (pos bj l)

/-- The total is the sum of the tiles. -/
theorem total_eq_blocks (p t : Fin 16384 → EReal) :
    total p t = ∑ bi : Fin 16, ∑ bj : Fin 16, block p t bi bj := by
  unfold total block
  rw [sum_pos]
  refine Finset.sum_congr rfl fun bi _ => ?_
  conv_rhs => rw [Finset.sum_comm]
  refine Finset.sum_congr rfl fun r _ => ?_
  exact sum_pos fun j => term p t (pos bi r) j

/-! ## The tiles in the order of the steps -/

/-- Step `n` visits tile row `n / 16`, tile column `n % 16`. -/
def stepBlock (p t : Fin 16384 → EReal) (n : ℕ) : EReal :=
  block p t ⟨n / 16 % 16, Nat.mod_lt _ (by decide)⟩ ⟨n % 16, Nat.mod_lt _ (by decide)⟩

/-- What has been added up before step `n`. -/
def upTo (p t : Fin 16384 → EReal) (n : ℕ) : EReal := ∑ s ∈ Finset.range n, stepBlock p t s

theorem upTo_zero (p t : Fin 16384 → EReal) : upTo p t 0 = 0 := Finset.sum_range_zero _

theorem upTo_succ (p t : Fin 16384 → EReal) (n : ℕ) : upTo p t (n + 1) = upTo p t n + stepBlock p t n :=
  Finset.sum_range_succ _ _

/-- A step below 256 is a tile row and a tile column. -/
def stepEquiv : Fin 16 × Fin 16 ≃ Fin 256 where
  toFun x := ⟨x.1.val * 16 + x.2.val, by have := x.1.isLt; have := x.2.isLt; omega⟩
  invFun i := (⟨i.val / 16, by have := i.isLt; omega⟩, ⟨i.val % 16, by omega⟩)
  left_inv x := by
    obtain ⟨a, b⟩ := x
    have ha := a.isLt
    have hb := b.isLt
    refine Prod.ext (Fin.ext ?_) (Fin.ext ?_)
    · show (a.val * 16 + b.val) / 16 = a.val
      omega
    · show (a.val * 16 + b.val) % 16 = b.val
      omega
  right_inv i := Fin.ext (by
    show i.val / 16 * 16 + i.val % 16 = i.val
    omega)

/-- After all 256 steps every tile has been added once: the total. -/
theorem upTo_all (p t : Fin 16384 → EReal) : upTo p t 256 = total p t := by
  rw [total_eq_blocks, upTo, Finset.sum_range, ← Equiv.sum_comp stepEquiv, Fintype.sum_prod_type]
  refine Finset.sum_congr rfl fun a _ => Finset.sum_congr rfl fun b _ => ?_
  have ha := a.isLt
  have hb := b.isLt
  show block p t ⟨(a.val * 16 + b.val) / 16 % 16, _⟩ ⟨(a.val * 16 + b.val) % 16, _⟩ = block p t a b
  congr 1
  · exact Fin.ext (by show (a.val * 16 + b.val) / 16 % 16 = a.val; omega)
  · exact Fin.ext (by show (a.val * 16 + b.val) % 16 = b.val; omega)

end Cert.PairSum

end
-- ==== Proof.TileSum.lean ====
/-
  One step's arithmetic, read over the extended reals.

  A step holds the column blocks `x0, x1` (1024 rows of p and of t, one column) and the row blocks `x2, x3` (one row,
  1024 columns of p and of t).  It spreads the columns along the lanes and the rows along the sublanes, so that entry
  (r, l) of the 1024 x 1024 square is
      clamp (x0 r - x2 l) * clamp (x1 r - x3 l),
  sums every row over its lanes, then sums the 1024 row sums, and adds the one number so obtained to the accumulator.
  Over the extended reals each of the two reductions is the plain finite sum over the reduced coordinate, so the
  accumulator's new value is its old value plus the double sum over r and l.  The last step's finish is
  `1 - a / (16384 * 16383)` of the accumulator, and the first step's zero is the extended real 0.
-/
import proofs.«122512_j58325655880083_1_alg».proof.Proof.Gen.KernelIdeal.Skeleton
import proofs.«122512_j58325655880083_1_alg».proof.Proof.PairSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileSum

open Cert.KernelIdeal Cert.KernelIdeal.Gen

/-! ## Two layout readings: a vector made a column, a column spread over the lanes -/

variable {α : Type}

/-- An `[a]` array cast to `[a, 1]` reads, at `(i, u)`, the operand at `i`, whatever the unit coordinate. -/
theorem cast_column {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem bcast_column {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The square's entry, a row's sum, the tile's sum -/

/-- Entry `(r, l)` of the step's square of products. -/
theorem square_apply (x0 x1 : FVec Ideal S1024x1 .f32) (x2 x3 : FVec Ideal S1x1024 .f32) (r l : Fin 1024) :
    mulf
      (minimumf (broadcast S1024x1024 (Scalar.ofBits (F := Ideal) .f32 0x3F800000#32))
        (maximumf (broadcast S1024x1024 (Scalar.ofBits (F := Ideal) .f32 0xBF800000#32))
          (subf (broadcastTo S1024x1024 (shapeCast S1024x1 x0 shapeCasts_S1024x1_S1024x1) broadcasts_S1024x1_S1024x1024)
            (broadcastTo S1024x1024 (shapeCast S1x1024 x2 shapeCasts_S1x1024_S1x1024) broadcasts_S1x1024_S1024x1024))))
      (minimumf (broadcast S1024x1024 (Scalar.ofBits (F := Ideal) .f32 0x3F800000#32))
        (maximumf (broadcast S1024x1024 (Scalar.ofBits (F := Ideal) .f32 0xBF800000#32))
          (subf (broadcastTo S1024x1024 (shapeCast S1024x1 x1 shapeCasts_S1024x1_S1024x1) broadcasts_S1024x1_S1024x1024)
            (broadcastTo S1024x1024 (shapeCast S1x1024 x3 shapeCasts_S1x1024_S1x1024) broadcasts_S1x1024_S1024x1024))))
      (ix2 r l)
    = PairSum.clamp (x0 (ix2 r (0 : Fin 1)) - x2 (ix2 (0 : Fin 1) l)) * PairSum.clamp (x1 (ix2 r (0 : Fin 1)) - x3 (ix2 (0 : Fin 1) l)) := by
  rw [shapeCast_self, shapeCast_self, shapeCast_self, shapeCast_self]
  refine (mulf_apply _ _ _).trans ?_
  rw [minimumf_apply, minimumf_apply, maximumf_apply, maximumf_apply, subf_apply, subf_apply,
    bcast_column x0, bcast_column x1, broadcastTo_1b_ab_apply x2, broadcastTo_1b_ab_apply x3]
  rfl

/-- Summing a column over its rows: the index with row `r` put back in front of `v` is `(r, v)`. -/
theorem lift_rows (h : S1024x1.Reduces [0] S1) (v : Fin 1) (r : Fin 1024) : h.lift (ix1 v) r = ix2 r v := by
  funext c
  match c with
  | ⟨0, _⟩ => rfl
  | ⟨1, _⟩ => rfl

/-- Summing the square over its lanes: the index with lane `l` put back after row `r` is `(r, l)`. -/
theorem lift_lanes (h : S1024x1024.Reduces [1] S1024) (r l : Fin 1024) : h.lift (ix1 r) l = ix2 r l := by
  funext c
  match c with
  | ⟨0, _⟩ => rfl
  | ⟨1, _⟩ => rfl

/-- A STEP: the accumulator's one entry becomes its old value plus the sum, over the rows `r` and the lanes `l` of the
    step's blocks, of `clamp (x0 r - x2 l) * clamp (x1 r - x3 l)`. -/
theorem step_apply (x0 x1 : FVec Ideal S1024x1 .f32) (x2 x3 : FVec Ideal S1x1024 .f32) (a : FVec Ideal S1x1 .f32) (u v : Fin 1) :
    k0_pay3 (F := Ideal) x0 x1 x2 x3 a (ix2 u v)
      = a (ix2 u v) + ∑ r : Fin 1024, ∑ l : Fin 1024,
          PairSum.clamp (x0 (ix2 r (0 : Fin 1)) - x2 (ix2 (0 : Fin 1) l)) * PairSum.clamp (x1 (ix2 r (0 : Fin 1)) - x3 (ix2 (0 : Fin 1) l)) := by
  unfold k0_pay3
  refine (addf_apply _ _ _).trans ?_
  refine congrArg₂ (· + ·) (congrFun (shapeCast_self a _) _) ?_
  refine (shapeCast_a_1a_apply _ _ u v).trans ?_
  refine (Ideal.multiReduction_add_single _ _ _ _ _ (ix1 v)).trans ?_
  refine Finset.sum_congr rfl fun r _ => ?_
  refine (congrArg _ (lift_rows _ v r)).trans ?_
  refine (cast_column _ _ r v).trans ?_
  refine (Ideal.multiReduction_add_single _ _ _ _ _ (ix1 r)).trans ?_
  refine Finset.sum_congr rfl fun l _ => ?_
  refine (congrArg _ (lift_lanes _ r l)).trans ?_
  exact square_apply x0 x1 x2 x3 r l

/-- The first step's zero is the extended real 0. -/
theorem zero_apply (j : S1x1.Idx) : k0_pay2 (F := Ideal) j = 0 := by
  unfold k0_pay2
  show Ideal.ofBits .f32 0x00000000#32 = 0
  exact Ideal.ofBits_zero_f32

/-- The last step's finish, at the accumulator's one entry: `1 - a / (16384 * 16383)`. -/
theorem finish_apply (a : FVec Ideal S1x1 .f32) (j : S1x1.Idx) : k0_pay1 (F := Ideal) a j = PairSum.finish (a j) := by
  unfold k0_pay1
  rw [shapeCast_self]
  rfl

end Cert.KernelIdeal.TileSum

end
-- ==== Proof.KernelValue.lean ====
/-
  The tiled program's run, read over the extended reals.

  Before the steps begin, p and t are each re-laid twice, as a 16384 x 1 column and as a 1 x 16384 row; a re-laying
  keeps row-major positions, so entry (n, 0) of a column and entry (0, n) of a row are entry n of the vector.  Step t
  (0 ≤ t < 256) reads rows 1024 (t / 16) … 1024 (t / 16) + 1023 of the two columns and lanes 1024 (t % 16) …
  1024 (t % 16) + 1023 of the two rows: row r of its column block of p is p at offset r of tile row t / 16, lane l of
  its row block of p is p at offset l of tile column t % 16, and the same for t.  So the double sum a step adds is the
  sum of the pair term over tile (t / 16, t % 16).

  The one-element accumulator after step n, by induction on n:
    * n = 0: zero plus tile 0;
    * 0 < n < 255: what step n - 1 left, plus tile n — the sum of tiles 0 … n;
    * n = 255: what step 254 left plus tile 255 is the sum of all 256 tiles, that is the total; the finish turns it
      into 1 - total / (16384 * 16383).
  The accumulator is written back to its one-element array once, after step 255, and its block is the whole array; the
  array is then re-laid as a scalar.  So every run ends with the scalar at 1 - total / (16384 * 16383) and both
  arguments as they were.
-/
import proofs.«122512_j58325655880083_1_alg».proof.Proof.Gen.KernelIdeal.Frame
import proofs.«122512_j58325655880083_1_alg».proof.Proof.Pieces
import proofs.«122512_j58325655880083_1_alg».proof.Proof.TileSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- The two argument vectors as functions of a position. -/
abbrev pvec (c : Dev nD) : Fin 16384 → EReal := PairSum.asFn (m ((c : Thread nD τ).loc main_arg0))
abbrev tvec (c : Dev nD) : Fin 16384 → EReal := PairSum.asFn (m ((c : Thread nD τ).loc main_arg1))

/-! ## What the region finds in its four input arrays -/

theorem V_pcol (c : Dev nD) : (V m c main_v0 : S16384x1.Idx → EReal)
    = shapeCast S16384x1 (m ((c : Thread nD τ).loc main_arg0)) shapeCasts_S16384_S16384x1 := by
  show StableHlo.after hostOps0 (fun b => m (c, b)) (Proc.devRef .tc main_v0) = _
  after_results
  rfl

theorem V_tcol (c : Dev nD) : (V m c main_v1 : S16384x1.Idx → EReal)
    = shapeCast S16384x1 (m ((c : Thread nD τ).loc main_arg1)) shapeCasts_S16384_S16384x1 := by
  show StableHlo.after hostOps0 (fun b => m (c, b)) (Proc.devRef .tc main_v1) = _
  after_results
  rfl

theorem V_prow (c : Dev nD) : (V m c main_v2 : S1x16384.Idx → EReal)
    = shapeCast S1x16384 (m ((c : Thread nD τ).loc main_arg0)) shapeCasts_S16384_S1x16384 := by
  show StableHlo.after hostOps0 (fun b => m (c, b)) (Proc.devRef .tc main_v2) = _
  after_results
  rfl

theorem V_trow (c : Dev nD) : (V m c main_v3 : S1x16384.Idx → EReal)
    = shapeCast S1x16384 (m ((c : Thread nD τ).loc main_arg1)) shapeCasts_S16384_S1x16384 := by
  show StableHlo.after hostOps0 (fun b => m (c, b)) (Proc.devRef .tc main_v3) = _
  after_results
  rfl

/-- Step `t` reads tile row `t / 16` of the two column arrays and tile column `t % 16` of the two row arrays. -/
theorem idx_facts : ∀ t : Fin cfg0.N,
    win0_0.index t (0 : Fin 2) = t.val / 16 % 16 ∧ win0_0.index t (1 : Fin 2) = 0 ∧
    win0_1.index t (0 : Fin 2) = t.val / 16 % 16 ∧ win0_1.index t (1 : Fin 2) = 0 ∧
    win0_2.index t (0 : Fin 2) = 0 ∧ win0_2.index t (1 : Fin 2) = t.val % 16 ∧
    win0_3.index t (0 : Fin 2) = 0 ∧ win0_3.index t (1 : Fin 2) = t.val % 16 :=
  (by decide +kernel : ∀ t : Fin grid0.N,
    win0_0.index t (0 : Fin 2) = t.val / 16 % 16 ∧ win0_0.index t (1 : Fin 2) = 0 ∧
    win0_1.index t (0 : Fin 2) = t.val / 16 % 16 ∧ win0_1.index t (1 : Fin 2) = 0 ∧
    win0_2.index t (0 : Fin 2) = 0 ∧ win0_2.index t (1 : Fin 2) = t.val % 16 ∧
    win0_3.index t (0 : Fin 2) = 0 ∧ win0_3.index t (1 : Fin 2) = t.val % 16)

/-- The tile row and the tile column of step `t`. -/
abbrev tileRow (t : Fin cfg0.N) : Fin 16 := ⟨t.val / 16 % 16, Nat.mod_lt _ (by decide)⟩
abbrev tileCol (t : Fin cfg0.N) : Fin 16 := ⟨t.val % 16, Nat.mod_lt _ (by decide)⟩

/-- The four blocks a step reads, each at its literal type. -/
abbrev pcol (c : Dev nD) (t : Fin cfg0.N) : FVec Ideal S1024x1 .f32 := iblk m c 0 t
abbrev tcol (c : Dev nD) (t : Fin cfg0.N) : FVec Ideal S1024x1 .f32 := iblk m c 1 t
abbrev prow (c : Dev nD) (t : Fin cfg0.N) : FVec Ideal S1x1024 .f32 := iblk m c 2 t
abbrev trow (c : Dev nD) (t : Fin cfg0.N) : FVec Ideal S1x1024 .f32 := iblk m c 3 t

/-- Row `r` of step `t`'s column block of p is p at offset `r` of the step's tile row. -/
theorem pcol_apply (c : Dev nD) (t : Fin cfg0.N) (r : Fin 1024) (u : Fin 1) :
    pcol m c t (ix2 r u) = pvec m c (PairSum.pos (tileRow t) r) := by
  unfold pcol iblk
  rw [View.read_apply]
  show V m c main_v0 _ = _
  rw [V_pcol]
  refine shapeCast_apply _ _ _ (ix1 (PairSum.pos (tileRow t) r)) ?_
  rw [Shape.rowMajor_val_two, Shape.rowMajor_val_one]
  show (t.val / 16 % 16) * 1024 + r.val = (win0_0.index t 0 * 1024 + 1 * r.val) * 1 + (win0_0.index t 1 * 1 + 1 * u.val)
  have hu : u.val = 0 := by omega
  rw [(idx_facts t).1, (idx_facts t).2.1, hu]
  omega

/-- Row `r` of step `t`'s column block of t likewise. -/
theorem tcol_apply (c : Dev nD) (t : Fin cfg0.N) (r : Fin 1024) (u : Fin 1) :
    tcol m c t (ix2 r u) = tvec m c (PairSum.pos (tileRow t) r) := by
  unfold tcol iblk
  rw [View.read_apply]
  show V m c main_v1 _ = _
  rw [V_tcol]
  refine shapeCast_apply _ _ _ (ix1 (PairSum.pos (tileRow t) r)) ?_
  rw [Shape.rowMajor_val_two, Shape.rowMajor_val_one]
  show (t.val / 16 % 16) * 1024 + r.val = (win0_1.index t 0 * 1024 + 1 * r.val) * 1 + (win0_1.index t 1 * 1 + 1 * u.val)
  have hu : u.val = 0 := by omega
  rw [(idx_facts t).2.2.1, (idx_facts t).2.2.2.1, hu]
  omega

/-- Lane `l` of step `t`'s row block of p is p at offset `l` of the step's tile column. -/
theorem prow_apply (c : Dev nD) (t : Fin cfg0.N) (u : Fin 1) (l : Fin 1024) :
    prow m c t (ix2 u l) = pvec m c (PairSum.pos (tileCol t) l) := by
  unfold prow iblk
  rw [View.read_apply]
  show V m c main_v2 _ = _
  rw [V_prow]
  refine shapeCast_apply _ _ _ (ix1 (PairSum.pos (tileCol t) l)) ?_
  rw [Shape.rowMajor_val_two, Shape.rowMajor_val_one]
  show (t.val % 16) * 1024 + l.val = (win0_2.index t 0 * 1 + 1 * u.val) * 16384 + (win0_2.index t 1 * 1024 + 1 * l.val)
  have hu : u.val = 0 := by omega
  rw [(idx_facts t).2.2.2.2.1, (idx_facts t).2.2.2.2.2.1, hu]
  omega

/-- Lane `l` of step `t`'s row block of t likewise. -/
theorem trow_apply (c : Dev nD) (t : Fin cfg0.N) (u : Fin 1) (l : Fin 1024) :
    trow m c t (ix2 u l) = tvec m c (PairSum.pos (tileCol t) l) := by
  unfold trow iblk
  rw [View.read_apply]
  show V m c main_v3 _ = _
  rw [V_trow]
  refine shapeCast_apply _ _ _ (ix1 (PairSum.pos (tileCol t) l)) ?_
  rw [Shape.rowMajor_val_two, Shape.rowMajor_val_one]
  show (t.val % 16) * 1024 + l.val = (win0_3.index t 0 * 1 + 1 * u.val) * 16384 + (win0_3.index t 1 * 1024 + 1 * l.val)
  have hu : u.val = 0 := by omega
  rw [(idx_facts t).2.2.2.2.2.2.1, (idx_facts t).2.2.2.2.2.2.2, hu]
  omega

/-! ## One step over the extended reals -/

/-- The double sum a step adds is the sum of the pair term over the step's tile. -/
theorem tile_eq (c : Dev nD) (t : Fin cfg0.N) :
    (∑ r : Fin 1024, ∑ l : Fin 1024,
      PairSum.clamp (pcol m c t (ix2 r (0 : Fin 1)) - prow m c t (ix2 (0 : Fin 1) l))
        * PairSum.clamp (tcol m c t (ix2 r (0 : Fin 1)) - trow m c t (ix2 (0 : Fin 1) l)))
      = PairSum.stepBlock (pvec m c) (tvec m c) t.val := by
  simp only [pcol_apply, tcol_apply, prow_apply, trow_apply]
  rfl

/-- A middle step adds its tile to what it found. -/
theorem middle_value (c : Dev nD) (t : Fin cfg0.N) (hc0 : ¬cond0_0 (grid0.coords t)) (hc1 : ¬cond0_1 (grid0.coords t))
    (xo : FVec Ideal S1x1 .f32) (u v : Fin 1) :
    out0_B_4 c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t) xo (ix2 u v)
      = xo (ix2 u v) + PairSum.stepBlock (pvec m c) (tvec m c) t.val := by
  refine (congrFun (Pieces.out_middle (F := Ideal) c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t) xo) (ix2 u v)).trans ?_
  refine (TileSum.step_apply (pcol m c t) (tcol m c t) (prow m c t) (trow m c t) xo u v).trans ?_
  rw [tile_eq]

/-- The first step leaves its tile alone: zero plus the tile. -/
theorem first_value (c : Dev nD) (t : Fin cfg0.N) (hc0 : cond0_0 (grid0.coords t)) (hc1 : ¬cond0_1 (grid0.coords t)) (u v : Fin 1) :
    out0_A_4 c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t) (ix2 u v)
      = PairSum.stepBlock (pvec m c) (tvec m c) t.val := by
  refine (congrFun (Pieces.out_first (F := Ideal) c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t)) (ix2 u v)).trans ?_
  refine (TileSum.step_apply (pcol m c t) (tcol m c t) (prow m c t) (trow m c t) (k0_pay2 (F := Ideal)) u v).trans ?_
  rw [TileSum.zero_apply, zero_add, tile_eq]

/-- The last step adds its tile to what it found and applies the finish. -/
theorem last_value (c : Dev nD) (t : Fin cfg0.N) (hc0 : ¬cond0_0 (grid0.coords t)) (hc1 : cond0_1 (grid0.coords t))
    (xo : FVec Ideal S1x1 .f32) (u v : Fin 1) :
    out0_C_4 c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t) xo (ix2 u v)
      = PairSum.finish (xo (ix2 u v) + PairSum.stepBlock (pvec m c) (tvec m c) t.val) := by
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) hc0 hc1 (iblk m c 0 t) (iblk m c 1 t) (iblk m c 2 t) (iblk m c 3 t) xo) (ix2 u v)).trans ?_
  refine (TileSum.finish_apply _ (ix2 u v)).trans ?_
  refine congrArg PairSum.finish ?_
  refine (TileSum.step_apply (pcol m c t) (tcol m c t) (prow m c t) (trow m c t) xo u v).trans ?_
  rw [tile_eq]

/-! ## The accumulator, step by step -/

/-- Before the last step the accumulator holds the tiles of the steps so far, added up. -/
theorem acc_eq (c : Dev nD) : ∀ (n : ℕ) (h : n < cfg0.N), n < 255 →
    outsAt0 m c n h = fun _ => PairSum.upTo (pvec m c) (tvec m c) (n + 1)
  | 0, h, _ => by
    funext j
    obtain ⟨u, v, rfl⟩ : ∃ (u v : Fin 1), j = ix2 u v := ⟨j 0, j 1, eq_ix2 j⟩
    refine (congrFun (outsAt0_A m c ⟨0, h⟩ rfl (by show ¬ 0 % 256 = 255; decide)) (ix2 u v)).trans ?_
    refine (first_value m c ⟨0, h⟩ _ _ u v).trans ?_
    show PairSum.stepBlock _ _ 0 = PairSum.upTo _ _ (0 + 1)
    rw [PairSum.upTo_succ, PairSum.upTo_zero, zero_add]
  | n + 1, h, hlt => by
    have h0 : ¬(⟨n + 1, h⟩ : Fin cfg0.N).val % 256 = 0 := by show ¬ (n + 1) % 256 = 0; omega
    have h1 : ¬(⟨n + 1, h⟩ : Fin cfg0.N).val % 256 = 255 := by show ¬ (n + 1) % 256 = 255; omega
    funext j
    obtain ⟨u, v, rfl⟩ : ∃ (u v : Fin 1), j = ix2 u v := ⟨j 0, j 1, eq_ix2 j⟩
    refine (congrFun (outsAt0_B m c ⟨n + 1, h⟩ h0 h1) (ix2 u v)).trans ?_
    refine (middle_value m c ⟨n + 1, h⟩ _ _ _ u v).trans ?_
    show outsAt0 m c n _ (ix2 u v) + PairSum.stepBlock _ _ (n + 1) = PairSum.upTo _ _ (n + 1 + 1)
    rw [acc_eq c n _ (by omega), PairSum.upTo_succ _ _ (n + 1)]

/-- After the last step it holds the finish of the total. -/
theorem last_eq (c : Dev nD) (h : 255 < cfg0.N) :
    outsAt0 m c 255 h = fun _ => PairSum.finish (PairSum.total (pvec m c) (tvec m c)) := by
  funext j
  obtain ⟨u, v, rfl⟩ : ∃ (u v : Fin 1), j = ix2 u v := ⟨j 0, j 1, eq_ix2 j⟩
  refine (congrFun (outsAt0_C m c ⟨255, h⟩ (by show ¬ 255 % 256 = 0; decide) (by show 255 % 256 = 255; decide)) (ix2 u v)).trans ?_
  refine (last_value m c ⟨255, h⟩ _ _ _ u v).trans ?_
  show PairSum.finish (outsAt0 m c 254 _ (ix2 u v) + PairSum.stepBlock _ _ 255) = _
  rw [acc_eq m c 254 _ (by decide)]
  exact congrArg PairSum.finish ((PairSum.upTo_succ _ _ 255).symm.trans (PairSum.upTo_all _ _))

/-! ## The result array, the reshape after the region, and the run -/

/-- The number the kernel computes: the finish of the total. -/
abbrev value (c : Dev nD) : EReal := PairSum.finish (PairSum.total (pvec m c) (tvec m c))

/-- The one-element result array holding it. -/
abbrev result (c : Dev nD) : Buf (Elt Ideal) ((c : Thread nD τ).loc main_v4) := fun _ => value m c

/-- The last step. -/
abbrev tLast : Fin cfg0.N := ⟨255, by rw [show cfg0.N = 256 from N_0]; decide⟩

/-- The one write-back, after the last step, writes the value. -/
theorem flushed_eq (c : Dev nD) (t : Fin cfg0.N) (hf : (cfg0.win 4).flush t = true) :
    (dats m 0 c).flushed 4 t = ((cfg0.win 4).blk t).view.read (Elt Ideal) (result m c) := by
  have hN : cfg0.N = 256 := N_0
  have h255 : t.val = 255 := by have := (flush0_4 t).mp hf; have := t.isLt; omega
  obtain rfl : t = tLast := Fin.ext h255
  show (cfg0.win 4).cut (grid0.coords tLast) ((dats m 0 c).after 4 tLast) = _
  rw [after0_4]
  show (cfg0.win 4).cut (grid0.coords tLast) (outsAt0 m c 255 _) = _
  rw [last_eq]
  rfl

/-- So the result array ends holding the value: its one block is the whole array. -/
theorem final (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v4).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The reshape after the region hands the one element on as a scalar. -/
theorem tail_eq (c : Dev nD) :
    Pipeline.afterTail₀ cfgs (dats m) 0 (V0 m) [hostOps1] c main_v5 = fun _ => value m c := by
  unfold Pipeline.afterTail₀
  show StableHlo.after hostOps1 _ (Proc.devRef .tc main_v5) = _
  after_results
  rw [(Pipeline.withArrays_arr spec0 launch0.win.arr_inj c _ _ 4).trans (final m c)]
  rfl

/-- The run, read: the scalar result at the value, both arguments unchanged. -/
theorem run : θ_run defs (onTc (τ := τ) (main (F := Ideal))) ⟨m, fun _ => 0, ρ⟩ fun r => ∀ c : Dev nD,
      r.2.mem ((c.tc : Thread nD τ).loc main_v5) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference program, read over the extended reals.

  It spreads p along the rows and along the columns of a 16384 x 16384 square, subtracts, clamps to [-1, 1], does the
  same with t, multiplies the two squares entry by entry — entry (i, j) is the pair term at (i, j) —, sums the whole
  square from zero, multiplies the sum by 1/2 and then by 2, divides by 16384 * 16383 and subtracts the quotient from 1.
  The sum over the square's index type is the double sum over its two coordinates, `0 + S = S`, and
  `2 * (S * (1/2)) = S`: the result is `finish (total p t)`.
-/
import proofs.«122512_j58325655880083_1_alg».proof.Proof.Gen.ReferenceIdeal.Read
import proofs.«122512_j58325655880083_1_alg».proof.Proof.PairSum
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-! ## Where the two spreadings read their vector -/

theorem p_row (i j : Fin 16384) : idx_main_v0 (idx_main_v2 (ix2 i j)) = ix1 i :=
  funext fun a => match a with | ⟨0, _⟩ => rfl
theorem p_col (i j : Fin 16384) : idx_main_v1 (idx_main_v3 (ix2 i j)) = ix1 j :=
  funext fun a => match a with | ⟨0, _⟩ => rfl
theorem t_row (i j : Fin 16384) : idx_main_v6 (idx_main_v8 (ix2 i j)) = ix1 i :=
  funext fun a => match a with | ⟨0, _⟩ => rfl
theorem t_col (i j : Fin 16384) : idx_main_v7 (idx_main_v9 (ix2 i j)) = ix1 j :=
  funext fun a => match a with | ⟨0, _⟩ => rfl

/-- Entry `(i, j)` of the product square is the pair term at `(i, j)`. -/
theorem product_apply (A0 A1 : FVec Ideal S16384 .f32) (i j : Fin 16384) :
    val_main_v12 (F := Ideal) A0 A1 (ix2 i j) = PairSum.term (PairSum.asFn A0) (PairSum.asFn A1) i j := by
  rw [val_main_v12_apply, val_main_v5_apply, val_main_call0_v4_apply, val_main_call0_v3_apply, val_main_cst_0_apply,
    val_main_call0_v2_apply, val_main_call0_v1_apply, val_main_call0_v0_apply, val_main_cst_apply, val_main_v4_apply,
    val_main_v2_apply, val_main_v0_apply, val_main_v3_apply, val_main_v1_apply,
    val_main_v11_apply, val_main_call1_v4_apply, val_main_call1_v3_apply, val_main_cst_2_apply,
    val_main_call1_v2_apply, val_main_call1_v1_apply, val_main_call1_v0_apply, val_main_cst_1_apply, val_main_v10_apply,
    val_main_v8_apply, val_main_v6_apply, val_main_v9_apply, val_main_v7_apply,
    p_row, p_col, t_row, t_col]
  rfl

/-- The reference's result, at its one index: `finish` of the total. -/
theorem result_apply (A0 A1 : FVec Ideal S16384 .f32) (k : S_.Idx) :
    val_main_v17 (F := Ideal) A0 A1 k = PairSum.finish (PairSum.total (PairSum.asFn A0) (PairSum.asFn A1)) := by
  rw [val_main_v17_apply, val_main_cst_7_apply, val_main_v16_apply, val_main_cst_6_apply, val_main_v15_apply,
    val_main_cst_5_apply, val_main_v14_apply, val_main_cst_4_apply, val_main_v13_apply, val_main_cst_3_apply, sum_idx2]
  simp only [product_apply]
  simp only [Ideal.subf_def, Ideal.hostDivf_def, Ideal.mulf_def, Ideal.ofBits_def, Ideal.ofBits_zero_f32, zero_add,
    PairSum.two_mul_half]
  rfl

end Cert.ReferenceIdeal.RefValue

end
-- ==== Proof.lean ====
/-
  A rank statistic of two vectors, computed two ways, is one extended real.

  For vectors p and t of 16384 numbers let
      term (i, j) = clamp (p i - p j) * clamp (t i - t j),      clamp x = min 1 (max (-1) x),
      total       = the sum of term (i, j) over all 16384 x 16384 pairs,
      result      = 1 - total / (16384 * 16383).

  The tiled program cuts the square of pairs into 16 x 16 tiles of 1024 x 1024.  It visits the tiles in row-major order,
  one per step, 256 steps.  The first step starts a one-element accumulator at zero; every step adds its tile's sum
  (each row summed over its lanes, then the 1024 row sums added); the last step replaces the accumulator a by
  1 - a / (16384 * 16383); the one element is then handed on as a scalar.  By induction on the step the accumulator
  holds the sum of the tiles visited so far, so before the finish it holds the sum of all 256 tiles, and a sum over all
  pairs regrouped by tile is the same sum: the accumulator holds the total, and the program returns the result.

  The plain program forms the whole square of terms, sums it from zero, multiplies the sum by 1/2 and then by 2,
  divides by 16384 * 16383 and subtracts from 1.  Over the extended reals 0 + S = S and 2 * (S * (1/2)) = S for every S
  (the product is commutative and associative and 2 * (1/2) = 1), so it returns the result too.

  Both divisors are the same word, both clamps use the same two words in the same order, and no step uses that the
  inputs are finite: sums and products of extended reals may be regrouped freely.

  Both programs terminate without a fault and leave their arguments unchanged; for the tiled program that is the run
  the value is read from, for the plain program it is its run with the result dropped.  The idealized tiled program is
  the tiled program's own text read over the extended reals (no rewrite was applied), so there is nothing to preserve.
-/
import proofs.«122512_j58325655880083_1_alg».proof.Defs
import proofs.«122512_j58325655880083_1_alg».proof.Proof.Gen.Kernel
import proofs.«122512_j58325655880083_1_alg».proof.Proof.Gen.Kernel.Frame
import proofs.«122512_j58325655880083_1_alg».proof.Proof.Gen.KernelIdeal
import proofs.«122512_j58325655880083_1_alg».proof.Proof.Gen.KernelIdeal.Frame
import proofs.«122512_j58325655880083_1_alg».proof.Proof.Gen.ReferenceIdeal
import proofs.«122512_j58325655880083_1_alg».proof.Proof.Gen.ReferenceIdeal.Run
import proofs.«122512_j58325655880083_1_alg».proof.Proof.Gen.ReferenceIdeal.Read
import proofs.«122512_j58325655880083_1_alg».proof.Proof.Gen.Pre_finite_inputs
import proofs.«122512_j58325655880083_1_alg».proof.Proof.KernelValue
import proofs.«122512_j58325655880083_1_alg».proof.Proof.RefValue
import Idealize.ShloMosaic.Adequacy
import Idealize.ShloMosaic.Init

noncomputable section

namespace Cert.Proof

open Idealize.ShloMosaic Idealize.SL.Sem

/-- The tiled program, at the machine's words: it runs and leaves its arguments as they were. -/
theorem frame_k : Cert.frame_Kernel := fun m ρ _ => Cert.Kernel.Gen.frame m ρ

/-- The same over the extended reals. -/
theorem frame_ki : Cert.frame_KernelIdeal := fun m ρ _ => Cert.KernelIdeal.Gen.frame m ρ

/-- The plain program runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied in reading the tiled program over the extended reals. -/
theorem preserves : Cert.preserves_Kernel_KernelIdeal := trivial

/-- From arguments that agree, the tiled program ends with its scalar at `1 - total / (16384 * 16383)` and the plain
    program ends with its scalar at the same number. -/
theorem algebraic : Cert.algebraic_KernelIdeal_ReferenceIdeal := by
  intro m ρ m' ρ' _ hagree
  refine ⟨fun c _ => Cert.KernelIdeal.KernelValue.value m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  funext k
  rw [Cert.ReferenceIdeal.RefValue.result_apply, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
